-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg1 : IVec S500000 32) (main_arg2 : IVec S500000 32) (main_v33 : IVec S_ 1) : IVec S_ 1 :=
  let main_c_12 : IVec S_ 32 := constantI S_ 32 0#32
  let main_v34 : IVec S500000 32 := broadcastInDim S500000 ![] bcast_S_S500000 main_c_12
  let main_v35 : IVec S500000 1 := cmpi .sge main_arg1 main_v34
  let main_c_13 : IVec S_ 1 := constantI S_ 1 1#1
  let main_v36 : IVec S_ 1 := (fun x v => Host.reduce IntOp.andi x v reducesTo_S500000_S_d0 h_S_) main_v35 main_c_13
  let main_v37 : IVec S_ 1 := andi main_v33 main_v36
  let main_c_14 : IVec S_ 32 := constantI S_ 32 50000#32
  let main_v38 : IVec S500000 32 := broadcastInDim S500000 ![] bcast_S_S500000 main_c_14
  let main_v39 : IVec S500000 1 := cmpi .slt main_arg1 main_v38
  let main_c_15 : IVec S_ 1 := constantI S_ 1 1#1
  let main_v40 : IVec S_ 1 := (fun x v => Host.reduce IntOp.andi x v reducesTo_S500000_S_d0 h_S_) main_v39 main_c_15
  let main_v41 : IVec S_ 1 := andi main_v37 main_v40
  let main_c_16 : IVec S_ 32 := constantI S_ 32 0#32
  let main_v42 : IVec S500000 32 := broadcastInDim S500000 ![] bcast_S_S500000 main_c_16
  let main_v43 : IVec S500000 1 := cmpi .sge main_arg2 main_v42
  let main_c_17 : IVec S_ 1 := constantI S_ 1 1#1
  let main_v44 : IVec S_ 1 := (fun x v => Host.reduce IntOp.andi x v reducesTo_S500000_S_d0 h_S_) main_v43 main_c_17
  let main_v45 : IVec S_ 1 := andi main_v41 main_v44
  let main_c_18 : IVec S_ 32 := constantI S_ 32 50000#32
  let main_v46 : IVec S500000 32 := broadcastInDim S500000 ![] bcast_S_S500000 main_c_18
  let main_v47 : IVec S500000 1 := cmpi .slt main_arg2 main_v46
  let main_c_19 : IVec S_ 1 := constantI S_ 1 1#1
  let main_v48 : IVec S_ 1 := (fun x v => Host.reduce IntOp.andi x v reducesTo_S500000_S_d0 h_S_) main_v47 main_c_19
  let main_v49 : IVec S_ 1 := andi main_v45 main_v48
  main_v49

def fn_part1 {F : FTy → Type} [FloatOps F] (main_arg1 : IVec S500000 32) (main_arg2 : IVec S500000 32) (main_arg6 : FVec F S128 .f32) (main_arg7 : FVec F S128x16 .f32) (main_arg8 : FVec F S16 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg2 main_v33

def fn {F : FTy → Type} [FloatOps F] (main_arg0 : FVec F S50000x128 .f32) (main_arg1 : IVec S500000 32) (main_arg2 : IVec S500000 32) (main_arg3 : FVec F S256x256 .f32) (main_arg4 : FVec F S256 .f32) (main_arg5 : FVec F S256x128 .f32) (main_arg6 : FVec F S128 .f32) (main_arg7 : FVec F S128x16 .f32) (main_arg8 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg6 main_arg7 main_arg8 main_v13 main_v16
-- ==== Kernel.lean ====
abbrev S50000x128 : Shape := ⟨2, ![50000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩
abbrev S500000x1 : Shape := ⟨2, ![500000, 1]⟩
abbrev S500000x128 : Shape := ⟨2, ![500000, 128]⟩
abbrev S1x256 : Shape := ⟨2, ![1, 256]⟩
abbrev S1x128 : Shape := ⟨2, ![1, 128]⟩
abbrev S1x16 : Shape := ⟨2, ![1, 16]⟩
abbrev S500000x16 : Shape := ⟨2, ![500000, 16]⟩
abbrev S10000x128 : Shape := ⟨2, ![10000, 128]⟩
abbrev S10000x16 : Shape := ⟨2, ![10000, 16]⟩
abbrev S10000x256 : Shape := ⟨2, ![10000, 256]⟩

abbrev nBuf : Space → Nat
  | .hbm => 51
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S50000x128, .bf16⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .bf16⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .bf16⟩
  | .hbm, ⟨44, _⟩ => ⟨S256x256, .bf16⟩
  | .hbm, ⟨45, _⟩ => ⟨S256x128, .bf16⟩
  | .hbm, ⟨46, _⟩ => ⟨S128x16, .bf16⟩
  | .hbm, ⟨47, _⟩ => ⟨S1x256, .f32⟩
  | .hbm, ⟨48, _⟩ => ⟨S1x128, .f32⟩
  | .hbm, ⟨49, _⟩ => ⟨S1x16, .f32⟩
  | .hbm, ⟨50, _⟩ => ⟨S500000x16, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S256x256, .bf16⟩
  | .local _ .vmem, ⟨5, _⟩ => ⟨S1x256, .f32⟩
  | .local _ .vmem, ⟨6, _⟩ => ⟨S256x128, .bf16⟩
  | .local _ .vmem, ⟨7, _⟩ => ⟨S1x128, .f32⟩
  | .local _ .vmem, ⟨8, _⟩ => ⟨S128x16, .bf16⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v1 : Ref sig .tc := ⟨.hbm, 24, rfl⟩
abbrev main_v2 : Ref sig .tc := ⟨.hbm, 25, rfl⟩
abbrev main_c_3 : Ref sig .tc := ⟨.hbm, 26, rfl⟩
abbrev main_v3 : Ref sig .tc := ⟨.hbm, 27, rfl⟩
abbrev main_v4 : Ref sig .tc := ⟨.hbm, 28, rfl⟩
abbrev main_c_4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_5 : Ref sig .tc := ⟨.hbm, 35, rfl⟩
abbrev main_v10 : Ref sig .tc := ⟨.hbm, 36, rfl⟩
abbrev main_v11 : Ref sig .tc := ⟨.hbm, 37, rfl⟩
abbrev main_c_6 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  bitsLt_bf16_f32 : FTy.bits .bf16 < FTy.bits .f32
  bcast_S500000_S500000x1_0 : S500000.BroadcastsInDim S500000x1 (![0] : Fin 1 → Fin S500000x1.rank)
  shapeCasts_S256_S1x256 : S256.ShapeCasts S1x256
  shapeCasts_S128_S1x128 : S128.ShapeCasts S1x128
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  concatenates_S10000x128_S10000x128_S10000x256_d1 : Shape.Concatenates [S10000x128, S10000x128] S10000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S50000x128_S500000x1_S500000x128_1_0_n_n_0_1_1128_wf : GatherDims.WF S50000x128 S500000x1 S500000x128 [1] [0] [] [0] [] 1 ![1, 128]
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  dot_S10000x128_S128x16_S10000x16_1_0_0_1_n_n_wf : DotDims.WF S10000x128 S128x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .bf16 = 32 ∨ (Rect.block (s := S500000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .bf16 = 32 ∨ (Rect.block (s := S500000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .bf16 = 32 ∨ (Rect.block (s := S128x16) S128x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x16.size a ≤ S500000x16.size a
  hwx0_8 : ∀ i : grid0.Coords, EltTy.bits .f32 = 32 ∨ (Rect.block (s := S500000x16) S10000x16.size (cc0_transform_8 i) (hinb0_8 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S10000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000 : Shape := ⟨1, ![500000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S1x256 : Shape := ⟨2, ![1, 256]⟩
abbrev S1x128 : Shape := ⟨2, ![1, 128]⟩
abbrev S500000x16 : Shape := ⟨2, ![500000, 16]⟩
abbrev S1x16 : Shape := ⟨2, ![1, 16]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S500000x256, .f32⟩
  | .hbm, ⟨28, _⟩ => ⟨S500000x256, .f32⟩
  | .hbm, ⟨29, _⟩ => ⟨S1x256, .f32⟩
  | .hbm, ⟨30, _⟩ => ⟨S500000x256, .f32⟩
  | .hbm, ⟨31, _⟩ => ⟨S500000x256, .f32⟩
  | .hbm, ⟨32, _⟩ => ⟨S_, .f32⟩
  | .hbm, ⟨33, _⟩ => ⟨S500000x256, .f32⟩
  | .hbm, ⟨34, _⟩ => ⟨S500000x256, .f32⟩
  | .hbm, ⟨35, _⟩ => ⟨S500000x128, .f32⟩
  | .hbm, ⟨36, _⟩ => ⟨S1x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000x128, .f32⟩
  | .hbm, ⟨41, _⟩ => ⟨S500000x128, .f32⟩
  | .hbm, ⟨42, _⟩ => ⟨S500000x16, .f32⟩
  | .hbm, ⟨43, _⟩ => ⟨S1x16, .f32⟩
  | .hbm, ⟨44, _⟩ => ⟨S500000x16, .f32⟩
  | .hbm, ⟨45, _⟩ => ⟨S500000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  gather_S50000x128_S500000x1_S500000x128_1_0_n_n_0_1_1128_wf : GatherDims.WF S50000x128 S500000x1 S500000x128 [1] [0] [] [0] [] 1 ![1, 128]
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  dot_S500000x128_S128x16_S500000x16_1_0_0_1_n_n_wf : DotDims.WF S500000x128 S128x16 S500000x16 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x16_S500000x16_1_0_0_1_n_n : DotDims S500000x128 S128x16 S500000x16 where
  lhsContracting := [1]
  rhsContracting := [0]
  lhsNonContracting := [0]
  rhsNonContracting := [1]
  lhsBatch := []
  rhsBatch := []
  wf := dot_S500000x128_S128x16_S500000x16_1_0_0_1_n_n_wf

class Facts : Prop extends Facts₀ where

variable [Facts]
-- ==== Proof.NodeIds.lean ====
/-
  What the precondition says of the two index inputs: every source and every destination id is a row number of the
  node table, that is, as an unsigned word it is below 50000.

  The precondition is a conjunction of "all" tests joined by `and`; its last four are, for each of the two id vectors,
  "every id is at least 0" and "every id is below 50000", both read as signed integers. A signed word that is at least
  0 and below 50000 is the same number read unsigned.
-/
import proofs.«406160_j1554778161753_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.NodeIds

open Idealize.ShloMosaic Cert.Pre_finite_inputs Cert.Pre_finite_inputs.Facts

instance : Subsingleton S_.Idx := ⟨fun _ _ => funext fun d => d.elim0⟩

/-- A word that, read signed, lies between the words 0 and 50000 (the second excluded) is below 50000 read unsigned. -/
theorem toNat_lt_of_signed (w z c : BitVec 32) (hz : z = 0#32) (hc : c = 50000#32)
    (h0 : z.toInt ≤ w.toInt) (h1 : w.toInt < c.toInt) : w.toNat < 50000 := by
  subst hz hc
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split_ifs at h0 h1 <;> omega

/-- The four tests on the ids, out of the last part of the precondition. -/
theorem of_part2 {F : FTy → Type} [FloatOps F] (a1 a2 : IVec S500000 32) (v : IVec S_ 1)
    (h : fn_part2 (F := F) a1 a2 v ValueIdx.ix0 = 1#1) :
    (∀ e : S500000.Idx, (a1 e).toNat < 50000) ∧ (∀ e : S500000.Idx, (a2 e).toNat < 50000) := by
  dsimp only [fn_part2] at h
  obtain ⟨h, h48⟩ := IntOp.andi_eq_one.mp h
  obtain ⟨h, h44⟩ := IntOp.andi_eq_one.mp h
  obtain ⟨h, h40⟩ := IntOp.andi_eq_one.mp h
  obtain ⟨-, h36⟩ := IntOp.andi_eq_one.mp h
  refine ⟨fun e => ?_, fun e => ?_⟩
  · have g0 := Host.reduce_andi_all _ _ _ _ _ h36 e
    have g1 := Host.reduce_andi_all _ _ _ _ _ h40 e
    exact toNat_lt_of_signed _ _ _ (StableHlo.Predicate.bcast_scalar _ h_S_ _ e) (StableHlo.Predicate.bcast_scalar _ h_S_ _ e)
      (IntOp.cmpi_sge.mp g0) (IntOp.cmpi_slt.mp g1)
  · have g0 := Host.reduce_andi_all _ _ _ _ _ h44 e
    have g1 := Host.reduce_andi_all _ _ _ _ _ h48 e
    exact toNat_lt_of_signed _ _ _ (StableHlo.Predicate.bcast_scalar _ h_S_ _ e) (StableHlo.Predicate.bcast_scalar _ h_S_ _ e)
      (IntOp.cmpi_sge.mp g0) (IntOp.cmpi_slt.mp g1)

/-- The precondition gives both id vectors in range, whatever the float inputs are. -/
theorem in_range {F : FTy → Type} [FloatOps F] (a0 : FVec F S50000x128 .f32) (a1 a2 : IVec S500000 32)
    (a3 : FVec F S256x256 .f32) (a4 : FVec F S256 .f32) (a5 : FVec F S256x128 .f32) (a6 : FVec F S128 .f32)
    (a7 : FVec F S128x16 .f32) (a8 : FVec F S16 .f32)
    (h : fn (F := F) a0 a1 a2 a3 a4 a5 a6 a7 a8 = fun _ => 1#1) :
    (∀ e : S500000.Idx, (a1 e).toNat < 50000) ∧ (∀ e : S500000.Idx, (a2 e).toNat < 50000) := by
  have h0 := congrFun h ValueIdx.ix0
  dsimp only [fn, fn_part1] at h0
  exact of_part2 a1 a2 _ h0

end Cert.NodeIds

end
-- ==== Proof.EdgeScore.lean ====
/-
  The score of one edge, as a function on the extended reals.

  An edge carries two feature rows of 128 numbers, one per endpoint. The rows are laid side by side into one row of
  256 and passed through three affine layers, 256 → 256 → 128 → 16, with a rectifier after the first two. Every sum
  here is a finite sum of products in the extended reals; nothing is assumed finite, because the two programs are
  compared sum by sum and factor by factor, and no sum is regrouped.
-/
import Idealize.ShloMosaic.PureOps.Ideal

noncomputable section

namespace Cert.EdgeScore

open Idealize.ShloMosaic

/-- The rectifier: the larger of a value and the value of the zero word. -/
def relu (x : EReal) : EReal := max x (Ideal.ofBits .f32 0x00000000#32)

/-- One affine layer on one row: entry `n` is the sum over `k` of the row's entry `k` times the weight at row `k`,
    column `n`, plus the bias at `n`. -/
def dense {K N : Nat} (x : Fin K → EReal) (W : Fin K → Fin N → EReal) (b : Fin N → EReal) (n : Fin N) : EReal :=
  (∑ k : Fin K, x k * W k n) + b n

/-- Two rows of 128 side by side: positions below 128 read the first row, the others the second, 128 less. -/
def cat (u v : Fin 128 → EReal) (p : Fin 256) : EReal :=
  if h : p.val < 128 then u ⟨p.val, h⟩ else v ⟨p.val - 128, by have := p.isLt; omega⟩

/-- The score of an edge whose endpoints' feature rows are `u` and `v`: three affine layers over the joined row,
    rectified after the first and after the second. -/
def score (u v : Fin 128 → EReal) (W1 : Fin 256 → Fin 256 → EReal) (b1 : Fin 256 → EReal)
    (W2 : Fin 256 → Fin 128 → EReal) (b2 : Fin 128 → EReal) (W3 : Fin 128 → Fin 16 → EReal) (b3 : Fin 16 → EReal) :
    Fin 16 → EReal :=
  dense (fun k => relu (dense (fun l => relu (dense (cat u v) W1 b1 l)) W2 b2 k)) W3 b3

end Cert.EdgeScore

end
-- ==== Proof.Rows.lean ====
/-
  Two tables of 128-wide rows joined along the columns, read one entry at a time: entry `(r, p)` of the joined table
  is entry `p` of row `r` of the first table laid beside row `r` of the second.
-/
import proofs.«406160_j1554778161753_3_alg».proof.Proof.EdgeScore
import Idealize.ShloMosaic.Lib.Pipeline.Value
import Idealize.ShloMosaic.Lib.ValueIdx

noncomputable section

namespace Cert.EdgeScore

open Idealize.ShloMosaic Idealize.ShloMosaic.ValueIdx

/-- Joining two `[R, 128]` tables along axis 1 and reading at `(r, p)`: below column 128 the first table's row `r`,
    from column 128 on the second table's row `r`, 128 columns to the left. -/
theorem concat_row {R : Nat} (a b : (⟨2, ![R, 128]⟩ : Shape).Idx → EReal)
    (h : Shape.Concatenates [(⟨2, ![R, 128]⟩ : Shape), (⟨2, ![R, 128]⟩ : Shape)] (⟨2, ![R, 256]⟩ : Shape) 1)
    (r : Fin R) (p : Fin 256) :
    concatenate (⟨2, ![R, 256]⟩ : Shape) 1 [⟨(⟨2, ![R, 128]⟩ : Shape), a⟩, ⟨(⟨2, ![R, 128]⟩ : Shape), b⟩] h (ix2 r p)
      = cat (fun q => a (ix2 r q)) (fun q => b (ix2 r q)) p := by
  unfold cat
  by_cases hp : p.val < 128
  · rw [dif_pos hp]
    exact concatenate_pair_apply_left 1 a b h (ix2 r p) rfl (ix2 r ⟨p.val, hp⟩)
      (fun c => match c with | ⟨0, _⟩ => rfl | ⟨1, _⟩ => rfl)
  · rw [dif_neg hp]
    have hp' : p.val - 128 < 128 := by have := p.isLt; omega
    exact concatenate_pair_apply_right 1 a b h (ix2 r p) rfl rfl (ix2 r ⟨p.val - 128, hp'⟩)
      (fun c hc => match c, hc with | ⟨0, _⟩, _ => rfl | ⟨1, _⟩, hc => absurd rfl hc)
      (by show p.val - 128 + 128 = p.val; omega)

end Cert.EdgeScore

end
-- ==== Proof.RefScore.lean ====
/-
  The reference's result, one entry at a time, is the score of the edge's two gathered rows.

  Entry `(e, j)` of the reference's last stage is an affine layer over row `e` of the rectified second layer, which is
  an affine layer over row `e` of the rectified first layer, which is an affine layer over row `e` of the two gathered
  tables joined along the columns. Each matrix product is read as its sum over the contracted position; each bias is a
  vector laid along the rows, so at `(e, n)` it reads the vector at `n`.
-/
import proofs.«406160_j1554778161753_3_alg».proof.Proof.Gen.ReferenceIdeal.Read
import proofs.«406160_j1554778161753_3_alg».proof.Proof.Rows

noncomputable section

namespace Cert.ReferenceIdeal.RefScore

open Cert.ReferenceIdeal Cert.ReferenceIdeal.Gen Cert.ReferenceIdeal.Read
open Idealize.ShloMosaic Idealize.ShloMosaic.ValueIdx Cert.EdgeScore

variable (x0 : (⟨S50000x128, .f32⟩ : BufTy).Contents (Elt Ideal)) (x1 x2 : (⟨S500000, .i32⟩ : BufTy).Contents (Elt Ideal))
  (x3 : (⟨S256x256, .f32⟩ : BufTy).Contents (Elt Ideal)) (x4 : (⟨S256, .f32⟩ : BufTy).Contents (Elt Ideal))
  (x5 : (⟨S256x128, .f32⟩ : BufTy).Contents (Elt Ideal)) (x6 : (⟨S128, .f32⟩ : BufTy).Contents (Elt Ideal))
  (x7 : (⟨S128x16, .f32⟩ : BufTy).Contents (Elt Ideal)) (x8 : (⟨S16, .f32⟩ : BufTy).Contents (Elt Ideal))

/-! ## Where each product and each bias reads its operands -/

theorem left1 (e : Fin 500000) (l k : Fin 256) : lidx_main_v15 (ix2 e l) k = ix2 e k :=
  funext fun a => match a with | ⟨0, _⟩ => rfl | ⟨1, _⟩ => rfl
theorem right1 (e : Fin 500000) (l k : Fin 256) : ridx_main_v15 (ix2 e l) k = ix2 k l :=
  funext fun a => match a with | ⟨0, _⟩ => rfl | ⟨1, _⟩ => rfl
theorem bias1 (e : Fin 500000) (l : Fin 256) : idx_main_v16 (idx_main_v17 (ix2 e l)) = ix1 l :=
  funext fun a => match a with | ⟨0, _⟩ => rfl

theorem left2 (e : Fin 500000) (n : Fin 128) (k : Fin 256) : lidx_main_v20 (ix2 e n) k = ix2 e k :=
  funext fun a => match a with | ⟨0, _⟩ => rfl | ⟨1, _⟩ => rfl
theorem right2 (e : Fin 500000) (n : Fin 128) (k : Fin 256) : ridx_main_v20 (ix2 e n) k = ix2 k n :=
  funext fun a => match a with | ⟨0, _⟩ => rfl | ⟨1, _⟩ => rfl
theorem bias2 (e : Fin 500000) (n : Fin 128) : idx_main_v21 (idx_main_v22 (ix2 e n)) = ix1 n :=
  funext fun a => match a with | ⟨0, _⟩ => rfl

theorem left3 (e : Fin 500000) (j : Fin 16) (k : Fin 128) : lidx_main_v25 (ix2 e j) k = ix2 e k :=
  funext fun a => match a with | ⟨0, _⟩ => rfl | ⟨1, _⟩ => rfl
theorem right3 (e : Fin 500000) (j : Fin 16) (k : Fin 128) : ridx_main_v25 (ix2 e j) k = ix2 k j :=
  funext fun a => match a with | ⟨0, _⟩ => rfl | ⟨1, _⟩ => rfl
theorem bias3 (e : Fin 500000) (j : Fin 16) : idx_main_v26 (idx_main_v27 (ix2 e j)) = ix1 j :=
  funext fun a => match a with | ⟨0, _⟩ => rfl

/-! ## The three layers at row `e` -/

/-- The joined features at `(e, p)`: the source's gathered row beside the destination's. -/
theorem joined (e : Fin 500000) (p : Fin 256) :
    val_main_v14 (F := Ideal) x0 x1 x2 (ix2 e p)
      = cat (fun q => val_main_v6 (F := Ideal) x0 x1 (ix2 e q)) (fun q => val_main_v13 (F := Ideal) x0 x2 (ix2 e q)) p := by
  unfold val_main_v14
  exact concat_row _ _ _ e p

/-- The rectified first layer at `(e, l)`. -/
theorem hidden1 (e : Fin 500000) (l : Fin 256) :
    val_main_v19 (F := Ideal) x0 x1 x2 x3 x4 (ix2 e l)
      = relu (dense (fun p => val_main_v14 (F := Ideal) x0 x1 x2 (ix2 e p)) (fun k n => x3 (ix2 k n)) (fun n => x4 (ix1 n)) l) := by
  rw [val_main_v19_apply, val_main_v18_apply, val_main_v15_apply, val_main_v17_apply, val_main_v16_apply,
    val_main_call0_v0_apply, val_main_call0_cst_apply, bias1]
  simp only [left1, right1]
  rfl

/-- The rectified second layer at `(e, n)`. -/
theorem hidden2 (e : Fin 500000) (n : Fin 128) :
    val_main_v24 (F := Ideal) x0 x1 x2 x3 x4 x5 x6 (ix2 e n)
      = relu (dense (fun l => val_main_v19 (F := Ideal) x0 x1 x2 x3 x4 (ix2 e l)) (fun k n => x5 (ix2 k n)) (fun n => x6 (ix1 n)) n) := by
  rw [val_main_v24_apply, val_main_v23_apply, val_main_v20_apply, val_main_v22_apply, val_main_v21_apply,
    val_main_call1_v0_apply, val_main_call1_cst_apply, bias2]
  simp only [left2, right2]
  rfl

/-- The last layer at `(e, j)`. -/
theorem last (e : Fin 500000) (j : Fin 16) :
    val_main_v28 (F := Ideal) x0 x1 x2 x3 x4 x5 x6 x7 x8 (ix2 e j)
      = dense (fun n => val_main_v24 (F := Ideal) x0 x1 x2 x3 x4 x5 x6 (ix2 e n)) (fun k n => x7 (ix2 k n)) (fun n => x8 (ix1 n)) j := by
  rw [val_main_v28_apply, val_main_v25_apply, val_main_v27_apply, val_main_v26_apply, bias3]
  simp only [left3, right3]
  rfl

/-- THE REFERENCE AT `(e, j)`: the score of the rows the two gathers fetched for edge `e`. -/
theorem result_apply (e : Fin 500000) (j : Fin 16) :
    val_main_v28 (F := Ideal) x0 x1 x2 x3 x4 x5 x6 x7 x8 (ix2 e j)
      = score (fun q => val_main_v6 (F := Ideal) x0 x1 (ix2 e q)) (fun q => val_main_v13 (F := Ideal) x0 x2 (ix2 e q))
          (fun k n => x3 (ix2 k n)) (fun n => x4 (ix1 n)) (fun k n => x5 (ix2 k n)) (fun n => x6 (ix1 n))
          (fun k n => x7 (ix2 k n)) (fun n => x8 (ix1 n)) j := by
  rw [last]
  unfold score
  simp only [hidden2, hidden1, joined]

end Cert.ReferenceIdeal.RefScore

end
-- ==== Proof.HostArrays.lean ====
/-
  What the eight input windows' arrays hold when the region is entered.

  Before the region the host narrows the node table and the three weight matrices to the 16-bit format, turns each bias
  vector into a one-row matrix, and gathers one table row per edge for the sources and one for the destinations. The row
  number of an edge is its id first forced into `[0, 49999]` (the larger of 0 and the id, then the smaller of 49999 and
  that), then — as for every indexing by a signed integer — replaced by id + 50000 when it is negative. An id that is
  already a row number passes the forcing unchanged, so under the precondition the rows gathered are exactly those of
  the ids themselves.
-/
import proofs.«406160_j1554778161753_3_alg».proof.Proof.Gen.KernelIdeal.Frame
import Idealize.ShloMosaic.Lib.StableHlo.Run
import Idealize.ShloMosaic.Lib.StableHlo.Predicate

noncomputable section

namespace Cert.KernelIdeal.HostArrays

open Cert.KernelIdeal Cert.KernelIdeal.Gen Idealize.ShloMosaic Idealize.ShloMosaic.TcCoe Idealize.SL.Sem Idealize.ShloMosaic.StableHlo

/-! ## Forcing an id into range, and the negative-index rule -/

/-- A word below 50000 is unchanged by "the smaller of 49999 and the larger of 0 and it", both read signed. -/
theorem forced_eq (w : BitVec 32) (hw : w.toNat < 50000) : IntOp.minsi 49999#32 (IntOp.maxsi 0#32 w) = w := by
  have hti : w.toInt = w.toNat := Predicate.toInt_eq_toNat_of_lt (by omega)
  have h0 : (0#32 : BitVec 32).toInt = 0 := by decide
  have h9 : (49999#32 : BitVec 32).toInt = 49999 := by decide
  have hmax : IntOp.maxsi 0#32 w = w := by
    unfold IntOp.maxsi
    have : ¬ (w.slt 0#32 = true) := by simp only [BitVec.slt, hti, h0, decide_eq_true_eq]; omega
    rw [if_neg this]
  rw [hmax]
  unfold IntOp.minsi
  have : ¬ ((49999#32 : BitVec 32).slt w = true) := by simp only [BitVec.slt, hti, h9, decide_eq_true_eq]; omega
  rw [if_neg this]

/-- The kernel's forcing of an id vector into `[0, 49999]`. -/
def forced (x : IVec S500000 32) : IVec S500000 32 :=
  minsi (broadcastInDim S500000 ![] bcast_S_S500000 (constantI S_ 32 49999#32))
    (maxsi (broadcastInDim S500000 ![] bcast_S_S500000 (constantI S_ 32 0#32)) x)

/-- The negative-index rule on an id vector: id + 50000 where the id is negative, the id elsewhere. -/
def wrapped (x : IVec S500000 32) : IVec S500000 32 :=
  select (cmpi .slt x (broadcastInDim S500000 ![] bcast_S_S500000 (constantI S_ 32 0#32)))
    (addi x (broadcastInDim S500000 ![] bcast_S_S500000 (constantI S_ 32 50000#32))) x

/-- Ids that are all row numbers pass the forcing unchanged. -/
theorem forced_of_in_range (x : IVec S500000 32) (hx : ∀ e : S500000.Idx, (x e).toNat < 50000) : forced x = x := by
  funext e
  show IntOp.minsi (broadcastInDim S500000 ![] bcast_S_S500000 (constantI S_ 32 49999#32) e)
    (IntOp.maxsi (broadcastInDim S500000 ![] bcast_S_S500000 (constantI S_ 32 0#32) e) (x e)) = x e
  have hs : 0 < (⟨0, ![]⟩ : Shape).numel := by decide
  rw [Predicate.bcast_scalar bcast_S_S500000 hs, Predicate.bcast_scalar bcast_S_S500000 hs]
  exact forced_eq (x e) (hx e)

/-! ## The arrays at region entry -/

variable {F : FTy → Type} [FloatOps F]
variable (m : (ℓ : Loc nD τ sig) → Buf (Elt F) ℓ)

set_option maxHeartbeats 2000000 in
/-- Window 0's array: for each edge the narrowed table's row at the source id, forced then wrapped. -/
theorem srcRows (c : Dev nD) : (V m c main_v9 : S500000x128.Idx → Elt F .bf16)
    = Host.gather gather_S50000x128_S500000x1_S500000x128_1_0_n_n_0_1_1128
        (truncf .bf16 (m ((c : Thread nD τ).loc main_arg0)) bitsLt_bf16_f32)
        (broadcastInDim S500000x1 ![0] bcast_S500000_S500000x1_0 (wrapped (forced (m ((c : Thread nD τ).loc main_arg1))))) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- Window 1's array: the same for the destination ids. -/
theorem dstRows (c : Dev nD) : (V m c main_v16 : S500000x128.Idx → Elt F .bf16)
    = Host.gather gather_S50000x128_S500000x1_S500000x128_1_0_n_n_0_1_1128
        (truncf .bf16 (m ((c : Thread nD τ).loc main_arg0)) bitsLt_bf16_f32)
        (broadcastInDim S500000x1 ![0] bcast_S500000_S500000x1_0 (wrapped (forced (m ((c : Thread nD τ).loc main_arg2))))) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- Windows 2, 4 and 6: the weight matrices narrowed. -/
theorem weights1 (c : Dev nD) : (V m c main_v17 : S256x256.Idx → Elt F .bf16)
    = truncf .bf16 (m ((c : Thread nD τ).loc main_arg3)) bitsLt_bf16_f32 := by
  dsimp only [V]
  simp only [hostOps0, hostOps0_1, hostOps0_2, hostOps0_3, hostOps0_4, List.flatten_cons, List.flatten_nil, List.append_nil, List.cons_append, List.nil_append]
  after_results_simp

set_option maxHeartbeats 2000000 in
theorem weights2 (c : Dev nD) : (V m c main_v18 : S256x128.Idx → Elt F .bf16)
    = truncf .bf16 (m ((c : Thread nD τ).loc main_arg5)) bitsLt_bf16_f32 := by
  dsimp only [V]
  simp only [hostOps0, hostOps0_1, hostOps0_2, hostOps0_3, hostOps0_4, List.flatten_cons, List.flatten_nil, List.append_nil, List.cons_append, List.nil_append]
  after_results_simp

set_option maxHeartbeats 2000000 in
theorem weights3 (c : Dev nD) : (V m c main_v19 : S128x16.Idx → Elt F .bf16)
    = truncf .bf16 (m ((c : Thread nD τ).loc main_arg7)) bitsLt_bf16_f32 := by
  dsimp only [V]
  simp only [hostOps0, hostOps0_1, hostOps0_2, hostOps0_3, hostOps0_4, List.flatten_cons, List.flatten_nil, List.append_nil, List.cons_append, List.nil_append]
  after_results_simp

set_option maxHeartbeats 2000000 in
/-- Windows 3, 5 and 7: the bias vectors as one-row matrices. -/
theorem bias1 (c : Dev nD) : (V m c main_v20 : S1x256.Idx → Elt F .f32)
    = shapeCast S1x256 (m ((c : Thread nD τ).loc main_arg4)) shapeCasts_S256_S1x256 := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
theorem bias2 (c : Dev nD) : (V m c main_v21 : S1x128.Idx → Elt F .f32)
    = shapeCast S1x128 (m ((c : Thread nD τ).loc main_arg6)) shapeCasts_S128_S1x128 := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
theorem bias3 (c : Dev nD) : (V m c main_v22 : S1x16.Idx → Elt F .f32)
    = shapeCast S1x16 (m ((c : Thread nD τ).loc main_arg8)) shapeCasts_S16_S1x16 := by
  dsimp only [V]
  simp only [hostOps0, hostOps0_1, hostOps0_2, hostOps0_3, hostOps0_4, List.flatten_cons, List.flatten_nil, List.append_nil, List.cons_append, List.nil_append]
  after_results_simp
  rfl

end Cert.KernelIdeal.HostArrays

end
-- ==== Proof.BodyScore.lean ====
/-
  The kernel body's one stored value, one entry at a time, is the score of the edge's two rows in the input blocks.

  The body loads a block of 10000 source rows and a block of 10000 destination rows, joins them along the columns, and
  runs the three layers on the whole block at once: each layer a matrix product into a zero accumulator, a bias row
  laid along the rows, and (after the first two) a rectifier; the narrowings to the 16-bit format between layers are the
  identity on extended reals. Read at `(r, j)`, a product into zero is its sum over the contracted position, so row `r`
  of each layer depends on row `r` of the layer before it only.
-/
import proofs.«406160_j1554778161753_3_alg».proof.Proof.Gen.KernelIdeal.Skeleton
import proofs.«406160_j1554778161753_3_alg».proof.Proof.Rows
import Idealize.ShloMosaic.PureOps.Ideal.Laws

noncomputable section

namespace Cert.KernelIdeal.BodyScore

open Cert.KernelIdeal Cert.KernelIdeal.Gen
open Idealize.ShloMosaic Idealize.ShloMosaic.ValueIdx Cert.EdgeScore

/-! ## The first product, [10000, 256] by [256, 256]: where it reads its operands, axis by axis -/

theorem lhs1_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem lhs1_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs1_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs1_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The first product at `(r, n)`: row `r` of the joined block against column `n` of the first weights. -/
theorem product1 (x : FVec Ideal S10000x256 .bf16) (w : FVec Ideal S256x256 .bf16) (r : Fin 10000) (n : Fin 256) :
    matmul dot_S10000x256_S256x256_S10000x256_1_0_0_1_n_n none x w (constant S10000x256 .f32 0x00000000#32) (ix2 r n)
      = ∑ k : Fin 256, x (ix2 r k) * w (ix2 k n) := by
  show FloatOps.matmul dot_S10000x256_S256x256_S10000x256_1_0_0_1_n_n none x w (constant S10000x256 .f32 0x00000000#32) (ix2 r n) = _
  rw [Ideal.matmul_constant_zero_apply, ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 r n) ((contrEquiv1 dot_S10000x256_S256x256_S10000x256_1_0_0_1_n_n 256 rfl rfl).symm k) = ix2 r k :=
    funext fun a => Fin.ext (by
      match a with
      | ⟨0, _⟩ => exact lhs1_0 _ _
      | ⟨1, _⟩ => exact (lhs1_1 _ _).trans hk)
  have er : dot_S10000x256_S256x256_S10000x256_1_0_0_1_n_n.rhsIdx (ix2 r n) ((contrEquiv1 dot_S10000x256_S256x256_S10000x256_1_0_0_1_n_n 256 rfl rfl).symm k) = ix2 k n :=
    funext fun a => Fin.ext (by
      match a with
      | ⟨0, _⟩ => exact (rhs1_0 _ _).trans hk
      | ⟨1, _⟩ => exact rhs1_1 _ _)
  rw [el, er]

/-! ## The second product, [10000, 256] by [256, 128] -/

theorem lhs2_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide),
    dif_pos (show (0 : Fin S10000x256.rank) ∈ dot_S10000x256_S256x128_S10000x128_1_0_0_1_n_n.lhsNonContracting by decide)]
  rfl
theorem lhs2_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs2_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs2_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide),
    dif_pos (show (1 : Fin S256x128.rank) ∈ dot_S10000x256_S256x128_S10000x128_1_0_0_1_n_n.rhsNonContracting by decide)]
  rfl

/-- The second product at `(r, n)`: row `r` of the first layer's block against column `n` of the second weights. -/
theorem product2 (x : FVec Ideal S10000x256 .bf16) (w : FVec Ideal S256x128 .bf16) (r : Fin 10000) (n : Fin 128) :
    matmul dot_S10000x256_S256x128_S10000x128_1_0_0_1_n_n none x w (constant S10000x128 .f32 0x00000000#32) (ix2 r n)
      = ∑ k : Fin 256, x (ix2 r k) * w (ix2 k n) := by
  show FloatOps.matmul dot_S10000x256_S256x128_S10000x128_1_0_0_1_n_n none x w (constant S10000x128 .f32 0x00000000#32) (ix2 r n) = _
  rw [Ideal.matmul_constant_zero_apply, ← Equiv.sum_comp (contrEquiv1 dot_S10000x256_S256x128_S10000x128_1_0_0_1_n_n 256 rfl rfl).symm]
  refine Finset.sum_congr rfl fun k _ => ?_
  have hk := contrEquiv1_symm_val dot_S10000x256_S256x128_S10000x128_1_0_0_1_n_n 256 rfl rfl k
  have el : dot_S10000x256_S256x128_S10000x128_1_0_0_1_n_n.lhsIdx (ix2 r n) ((contrEquiv1 dot_S10000x256_S256x128_S10000x128_1_0_0_1_n_n 256 rfl rfl).symm k) = ix2 r k :=
    funext fun a => Fin.ext (by
      match a with
      | ⟨0, _⟩ => exact lhs2_0 _ _
      | ⟨1, _⟩ => exact (lhs2_1 _ _).trans hk)
  have er : dot_S10000x256_S256x128_S10000x128_1_0_0_1_n_n.rhsIdx (ix2 r n) ((contrEquiv1 dot_S10000x256_S256x128_S10000x128_1_0_0_1_n_n 256 rfl rfl).symm k) = ix2 k n :=
    funext fun a => Fin.ext (by
      match a with
      | ⟨0, _⟩ => exact (rhs2_0 _ _).trans hk
      | ⟨1, _⟩ => exact rhs2_1 _ _)
  rw [el, er]

/-! ## The third product, [10000, 128] by [128, 16] -/

theorem lhs3_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl
theorem lhs3_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs3_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs3_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The third product at `(r, j)`: row `r` of the second layer's block against column `j` of the last weights. -/
theorem product3 (x : FVec Ideal S10000x128 .bf16) (w : FVec Ideal S128x16 .bf16) (r : Fin 10000) (j : Fin 16) :
    matmul dot_S10000x128_S128x16_S10000x16_1_0_0_1_n_n none x w (constant S10000x16 .f32 0x00000000#32) (ix2 r j)
      = ∑ k : Fin 128, x (ix2 r k) * w (ix2 k j) := by
  show FloatOps.matmul dot_S10000x128_S128x16_S10000x16_1_0_0_1_n_n none x w (constant S10000x16 .f32 0x00000000#32) (ix2 r j) = _
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 r j) ((contrEquiv1 dot_S10000x128_S128x16_S10000x16_1_0_0_1_n_n 128 rfl rfl).symm k) = ix2 r k :=
    funext fun a => Fin.ext (by
      match a with
      | ⟨0, _⟩ => exact lhs3_0 _ _
      | ⟨1, _⟩ => exact (lhs3_1 _ _).trans hk)
  have er : dot_S10000x128_S128x16_S10000x16_1_0_0_1_n_n.rhsIdx (ix2 r j) ((contrEquiv1 dot_S10000x128_S128x16_S10000x16_1_0_0_1_n_n 128 rfl rfl).symm k) = ix2 k j :=
    funext fun a => Fin.ext (by
      match a with
      | ⟨0, _⟩ => exact (rhs3_0 _ _).trans hk
      | ⟨1, _⟩ => exact rhs3_1 _ _)
  rw [el, er]

/-! ## A bias row laid along the 10000 rows reads, at `(r, n)`, its one row at `n` -/

theorem biasRow1 (b : FVec Ideal S1x256 .f32) (hb : S1x256.Broadcasts S10000x256) (r : Fin 10000) (n : Fin 256) :
    broadcastTo S10000x256 b hb (ix2 r n) = b (ix2 (0 : Fin 1) n) :=
  broadcastTo_apply b hb (ix2 r n) (ix2 (0 : Fin 1) n) (fun a => match a with
    | ⟨0, _⟩ => by show 0 = if (1 : Nat) = 1 then 0 else _; rw [if_pos rfl]
    | ⟨1, _⟩ => by show n.val = if (256 : Nat) = 1 then 0 else _; rw [if_neg (by decide)]; rfl)

theorem biasRow2 (b : FVec Ideal S1x128 .f32) (hb : S1x128.Broadcasts S10000x128) (r : Fin 10000) (n : Fin 128) :
    broadcastTo S10000x128 b hb (ix2 r n) = b (ix2 (0 : Fin 1) n) :=
  broadcastTo_apply b hb (ix2 r n) (ix2 (0 : Fin 1) n) (fun a => match a with
    | ⟨0, _⟩ => by show 0 = if (1 : Nat) = 1 then 0 else _; rw [if_pos rfl]
    | ⟨1, _⟩ => by show n.val = if (128 : Nat) = 1 then 0 else _; rw [if_neg (by decide)]; rfl)

theorem biasRow3 (b : FVec Ideal S1x16 .f32) (hb : S1x16.Broadcasts S10000x16) (r : Fin 10000) (j : Fin 16) :
    broadcastTo S10000x16 b hb (ix2 r j) = b (ix2 (0 : Fin 1) j) :=
  broadcastTo_apply b hb (ix2 r j) (ix2 (0 : Fin 1) j) (fun a => match a with
    | ⟨0, _⟩ => by show 0 = if (1 : Nat) = 1 then 0 else _; rw [if_pos rfl]
    | ⟨1, _⟩ => by show j.val = if (16 : Nat) = 1 then 0 else _; rw [if_neg (by decide)]; rfl)

/-! ## The three layers at row `r` of the block -/

/-- The rectified first layer at `(r, l)`: an affine layer over row `r` of the 256-wide block `x`. -/
theorem layer1 (x : FVec Ideal S10000x256 .bf16) (w : FVec Ideal S256x256 .bf16) (b : FVec Ideal S1x256 .f32)
    (hb : S1x256.Broadcasts S10000x256) (r : Fin 10000) (l : Fin 256) :
    maximumf (addf (matmul dot_S10000x256_S256x256_S10000x256_1_0_0_1_n_n none x w (constant S10000x256 .f32 0x00000000#32))
          (broadcastTo S10000x256 b hb)) (broadcast S10000x256 (Scalar.ofBits .f32 0x00000000#32)) (ix2 r l)
      = relu (dense (fun p => x (ix2 r p)) (fun k n => w (ix2 k n)) (fun n => b (ix2 (0 : Fin 1) n)) l) := by
  show max (matmul dot_S10000x256_S256x256_S10000x256_1_0_0_1_n_n none x w (constant S10000x256 .f32 0x00000000#32) (ix2 r l)
      + broadcastTo S10000x256 b hb (ix2 r l)) _ = _
  rw [product1, biasRow1]
  rfl

/-- The rectified second layer at `(r, n)`. -/
theorem layer2 (x : FVec Ideal S10000x256 .bf16) (w : FVec Ideal S256x128 .bf16) (b : FVec Ideal S1x128 .f32)
    (hb : S1x128.Broadcasts S10000x128) (r : Fin 10000) (n : Fin 128) :
    maximumf (addf (matmul dot_S10000x256_S256x128_S10000x128_1_0_0_1_n_n none x w (constant S10000x128 .f32 0x00000000#32))
          (broadcastTo S10000x128 b hb)) (broadcast S10000x128 (Scalar.ofBits .f32 0x00000000#32)) (ix2 r n)
      = relu (dense (fun p => x (ix2 r p)) (fun k n => w (ix2 k n)) (fun n => b (ix2 (0 : Fin 1) n)) n) := by
  show max (matmul dot_S10000x256_S256x128_S10000x128_1_0_0_1_n_n none x w (constant S10000x128 .f32 0x00000000#32) (ix2 r n)
      + broadcastTo S10000x128 b hb (ix2 r n)) _ = _
  rw [product2, biasRow2]
  rfl

/-- The last layer at `(r, j)`: no rectifier after it. -/
theorem layer3 (x : FVec Ideal S10000x128 .bf16) (w : FVec Ideal S128x16 .bf16) (b : FVec Ideal S1x16 .f32)
    (hb : S1x16.Broadcasts S10000x16) (r : Fin 10000) (j : Fin 16) :
    addf (matmul dot_S10000x128_S128x16_S10000x16_1_0_0_1_n_n none x w (constant S10000x16 .f32 0x00000000#32))
        (broadcastTo S10000x16 b hb) (ix2 r j)
      = dense (fun p => x (ix2 r p)) (fun k n => w (ix2 k n)) (fun n => b (ix2 (0 : Fin 1) n)) j := by
  show matmul dot_S10000x128_S128x16_S10000x16_1_0_0_1_n_n none x w (constant S10000x16 .f32 0x00000000#32) (ix2 r j)
      + broadcastTo S10000x16 b hb (ix2 r j) = _
  rw [product3, biasRow3]
  rfl

/-! ## The stored value -/

/-- THE BODY'S STORED VALUE AT `(r, j)`: the score of row `r` of the source block and row `r` of the destination block,
    under the weights and bias rows the body loaded. -/
theorem stored_apply (hu hv : Vec Ideal S10000x128 .bf16) (w1 : Vec Ideal S256x256 .bf16) (b1 : Vec Ideal S1x256 .f32)
    (w2 : Vec Ideal S256x128 .bf16) (b2 : Vec Ideal S1x128 .f32) (w3 : Vec Ideal S128x16 .bf16) (b3 : Vec Ideal S1x16 .f32)
    (r : Fin 10000) (j : Fin 16) :
    k0_pay1 (F := Ideal) hu hv w1 b1 w2 b2 w3 b3 (ix2 r j)
      = score (fun q => hu (ix2 r q)) (fun q => hv (ix2 r q))
          (fun k n => w1 (ix2 k n)) (fun n => b1 (ix2 (0 : Fin 1) n)) (fun k n => w2 (ix2 k n)) (fun n => b2 (ix2 (0 : Fin 1) n))
          (fun k n => w3 (ix2 k n)) (fun n => b3 (ix2 (0 : Fin 1) n)) j := by
  unfold k0_pay1
  simp only [shapeCast_self]
  rw [layer3]
  unfold score
  simp only [truncf_apply, layer2, layer1, concat_row, shapeCast_self]

end Cert.KernelIdeal.BodyScore

end
-- ==== Proof.EdgeBlocks.lean ====
/-
  From blocks to the array: after the run the result array holds, at `(e, j)`, the score of edge `e`'s two rows of
  the gathered tables the region was entered with.

  The grid has 50 points. At point `t` the source and destination windows hold rows `10000 t … 10000 t + 9999` of
  their tables, the six weight and bias windows hold their whole arrays, and the output window's block is rows
  `10000 t … 10000 t + 9999` of the result. So row `r` of what point `t` stores is the score of edge `10000 t + r`,
  every point writes its block back, and the 50 blocks tile the 500000 rows: edge `e` is written by point
  `e / 10000`.
-/
import proofs.«406160_j1554778161753_3_alg».proof.Proof.Gen.KernelIdeal.Value
import proofs.«406160_j1554778161753_3_alg».proof.Proof.BodyScore
import Idealize.ShloMosaic.Lib.Pipeline.Value
import Idealize.ShloMosaic.Lib.ValueIdx

noncomputable section

namespace Cert.KernelIdeal.EdgeBlocks

open Cert.KernelIdeal Cert.KernelIdeal.Gen Cert.KernelIdeal.Value
open Idealize.ShloMosaic Idealize.ShloMosaic.TcCoe Idealize.SL.Sem Idealize.ShloMosaic.ValueIdx Cert.EdgeScore
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The eight arrays the region is entered with, each at its literal type -/

abbrev srcTable (c : Dev nD) : Vec Ideal S500000x128 .bf16 := V m c main_v9
abbrev dstTable (c : Dev nD) : Vec Ideal S500000x128 .bf16 := V m c main_v16
abbrev weight1 (c : Dev nD) : Vec Ideal S256x256 .bf16 := V m c main_v17
abbrev biasRow1 (c : Dev nD) : Vec Ideal S1x256 .f32 := V m c main_v20
abbrev weight2 (c : Dev nD) : Vec Ideal S256x128 .bf16 := V m c main_v18
abbrev biasRow2 (c : Dev nD) : Vec Ideal S1x128 .f32 := V m c main_v21
abbrev weight3 (c : Dev nD) : Vec Ideal S128x16 .bf16 := V m c main_v19
abbrev biasRow3 (c : Dev nD) : Vec Ideal S1x16 .f32 := V m c main_v22

/-- THE RESULT: at `(e, j)` the score of row `e` of the source table and row `e` of the destination table. -/
def result (c : Dev nD) : S500000x16.Idx → EReal := fun i =>
  score (fun q => srcTable m c (ix2 (i 0) q)) (fun q => dstTable m c (ix2 (i 0) q))
    (fun k n => weight1 m c (ix2 k n)) (fun n => biasRow1 m c (ix2 (0 : Fin 1) n))
    (fun k n => weight2 m c (ix2 k n)) (fun n => biasRow2 m c (ix2 (0 : Fin 1) n))
    (fun k n => weight3 m c (ix2 k n)) (fun n => biasRow3 m c (ix2 (0 : Fin 1) n)) (i 1)

/-! ## Which block each window holds at point `t` (decided over the 50 points) -/

theorem moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

theorem resident : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each input block, read off its array -/

/-- The source window's block at point `t`: rows `10000 t + r` of the source table. -/
theorem srcBlock (c : Dev nD) (t : Fin cfg0.N) (r : Fin 10000) (q : Fin 128) (e : Fin 500000) (he : e.val = 10000 * t.val + r.val) :
    (iblk m c 0 t : Vec Ideal S10000x128 .bf16) (ix2 r q) = srcTable m c (ix2 e q) := by
  obtain ⟨h0, h1, -⟩ := moving t
  unfold iblk
  rw [View.read_apply]
  show V m c main_v9 _ = V m c main_v9 _
  congr 1
  funext a
  apply Fin.ext
  match a with
  | ⟨0, _⟩ => show win0_0.index t (0 : Fin 2) * 10000 + 1 * r.val = e.val; rw [h0, he]; omega
  | ⟨1, _⟩ => show win0_0.index t (1 : Fin 2) * 128 + 1 * q.val = q.val; rw [h1]; omega

/-- The destination window's block at point `t`: rows `10000 t + r` of the destination table. -/
theorem dstBlock (c : Dev nD) (t : Fin cfg0.N) (r : Fin 10000) (q : Fin 128) (e : Fin 500000) (he : e.val = 10000 * t.val + r.val) :
    (iblk m c 1 t : Vec Ideal S10000x128 .bf16) (ix2 r q) = dstTable m c (ix2 e q) := by
  obtain ⟨-, -, h0, h1, -⟩ := moving t
  unfold iblk
  rw [View.read_apply]
  show V m c main_v16 _ = V m c main_v16 _
  congr 1
  funext a
  apply Fin.ext
  match a with
  | ⟨0, _⟩ => show win0_1.index t (0 : Fin 2) * 10000 + 1 * r.val = e.val; rw [h0, he]; omega
  | ⟨1, _⟩ => show win0_1.index t (1 : Fin 2) * 128 + 1 * q.val = q.val; rw [h1]; omega

/-- The first weights' window holds the whole matrix at every point. -/
theorem weightBlock1 (c : Dev nD) (t : Fin cfg0.N) (k n : Fin 256) :
    (iblk m c 2 t : Vec Ideal S256x256 .bf16) (ix2 k n) = weight1 m c (ix2 k n) := by
  obtain ⟨h0, h1, -⟩ := resident t
  unfold iblk
  rw [View.read_apply]
  show V m c main_v17 _ = V m c main_v17 _
  congr 1
  funext a
  apply Fin.ext
  match a with
  | ⟨0, _⟩ => show win0_2.index t (0 : Fin 2) * 256 + 1 * k.val = k.val; rw [h0]; omega
  | ⟨1, _⟩ => show win0_2.index t (1 : Fin 2) * 256 + 1 * n.val = n.val; rw [h1]; omega

/-- The first bias row's window holds the whole row. -/
theorem biasBlock1 (c : Dev nD) (t : Fin cfg0.N) (n : Fin 256) :
    (iblk m c 3 t : Vec Ideal S1x256 .f32) (ix2 (0 : Fin 1) n) = biasRow1 m c (ix2 (0 : Fin 1) n) := by
  obtain ⟨-, -, h0, h1, -⟩ := resident t
  unfold iblk
  rw [View.read_apply]
  show V m c main_v20 _ = V m c main_v20 _
  congr 1
  funext a
  apply Fin.ext
  match a with
  | ⟨0, _⟩ => show win0_3.index t (0 : Fin 2) * 1 + 1 * 0 = 0; rw [h0]
  | ⟨1, _⟩ => show win0_3.index t (1 : Fin 2) * 256 + 1 * n.val = n.val; rw [h1]; omega

/-- The second weights' window holds the whole matrix. -/
theorem weightBlock2 (c : Dev nD) (t : Fin cfg0.N) (k : Fin 256) (n : Fin 128) :
    (iblk m c 4 t : Vec Ideal S256x128 .bf16) (ix2 k n) = weight2 m c (ix2 k n) := by
  obtain ⟨-, -, -, -, h0, h1, -⟩ := resident t
  unfold iblk
  rw [View.read_apply]
  show V m c main_v18 _ = V m c main_v18 _
  congr 1
  funext a
  apply Fin.ext
  match a with
  | ⟨0, _⟩ => show win0_4.index t (0 : Fin 2) * 256 + 1 * k.val = k.val; rw [h0]; omega
  | ⟨1, _⟩ => show win0_4.index t (1 : Fin 2) * 128 + 1 * n.val = n.val; rw [h1]; omega

/-- The second bias row's window holds the whole row. -/
theorem biasBlock2 (c : Dev nD) (t : Fin cfg0.N) (n : Fin 128) :
    (iblk m c 5 t : Vec Ideal S1x128 .f32) (ix2 (0 : Fin 1) n) = biasRow2 m c (ix2 (0 : Fin 1) n) := by
  obtain ⟨-, -, -, -, -, -, h0, h1, -⟩ := resident t
  unfold iblk
  rw [View.read_apply]
  show V m c main_v21 _ = V m c main_v21 _
  congr 1
  funext a
  apply Fin.ext
  match a with
  | ⟨0, _⟩ => show win0_5.index t (0 : Fin 2) * 1 + 1 * 0 = 0; rw [h0]
  | ⟨1, _⟩ => show win0_5.index t (1 : Fin 2) * 128 + 1 * n.val = n.val; rw [h1]; omega

/-- The last weights' window holds the whole matrix. -/
theorem weightBlock3 (c : Dev nD) (t : Fin cfg0.N) (k : Fin 128) (n : Fin 16) :
    (iblk m c 6 t : Vec Ideal S128x16 .bf16) (ix2 k n) = weight3 m c (ix2 k n) := by
  obtain ⟨-, -, -, -, -, -, -, -, h0, h1, -⟩ := resident t
  unfold iblk
  rw [View.read_apply]
  show V m c main_v19 _ = V m c main_v19 _
  congr 1
  funext a
  apply Fin.ext
  match a with
  | ⟨0, _⟩ => show win0_6.index t (0 : Fin 2) * 128 + 1 * k.val = k.val; rw [h0]; omega
  | ⟨1, _⟩ => show win0_6.index t (1 : Fin 2) * 16 + 1 * n.val = n.val; rw [h1]; omega

/-- The last bias row's window holds the whole row. -/
theorem biasBlock3 (c : Dev nD) (t : Fin cfg0.N) (n : Fin 16) :
    (iblk m c 7 t : Vec Ideal S1x16 .f32) (ix2 (0 : Fin 1) n) = biasRow3 m c (ix2 (0 : Fin 1) n) := by
  obtain ⟨-, -, -, -, -, -, -, -, -, -, h0, h1⟩ := resident t
  unfold iblk
  rw [View.read_apply]
  show V m c main_v22 _ = V m c main_v22 _
  congr 1
  funext a
  apply Fin.ext
  match a with
  | ⟨0, _⟩ => show win0_7.index t (0 : Fin 2) * 1 + 1 * 0 = 0; rw [h0]
  | ⟨1, _⟩ => show win0_7.index t (1 : Fin 2) * 16 + 1 * n.val = n.val; rw [h1]; omega

/-! ## What point `t` stores is block `t` of the result -/

/-- Entry `z` of the value point `t` stores is the result at row `10000 t + z₀`, column `z₁`. -/
theorem stored_block (c : Dev nD) (t : Fin cfg0.N) (z : S10000x16.Idx) (i : S500000x16.Idx)
    (h0 : (i 0).val = 10000 * t.val + (z 0).val) (h1 : (i 1).val = (z 1).val) :
    k0_pay1 (F := Ideal) (iblk m c 0 t) (iblk m c 1 t) (iblk m c 2 t) (iblk m c 3 t) (iblk m c 4 t) (iblk m c 5 t) (iblk m c 6 t) (iblk m c 7 t) z
      = result m c i := by
  obtain ⟨r, j, rfl⟩ : ∃ (r : Fin 10000) (j : Fin 16), z = ix2 r j := ⟨z 0, z 1, eq_ix2 z⟩
  obtain ⟨e, j', rfl⟩ : ∃ (e : Fin 500000) (j' : Fin 16), i = ix2 e j' := ⟨i 0, i 1, eq_ix2 i⟩
  obtain rfl : j' = j := Fin.ext h1
  refine (BodyScore.stored_apply (iblk m c 0 t) (iblk m c 1 t) (iblk m c 2 t) (iblk m c 3 t) (iblk m c 4 t) (iblk m c 5 t) (iblk m c 6 t) (iblk m c 7 t) r j').trans ?_
  have e0 : (fun q => (iblk m c 0 t : Vec Ideal S10000x128 .bf16) (ix2 r q)) = fun q => srcTable m c (ix2 e q) :=
    funext fun q => srcBlock m c t r q e h0
  have e1 : (fun q => (iblk m c 1 t : Vec Ideal S10000x128 .bf16) (ix2 r q)) = fun q => dstTable m c (ix2 e q) :=
    funext fun q => dstBlock m c t r q e h0
  have e2 : (fun k n => (iblk m c 2 t : Vec Ideal S256x256 .bf16) (ix2 k n)) = fun k n => weight1 m c (ix2 k n) :=
    funext fun k => funext fun n => weightBlock1 m c t k n
  have e3 : (fun n => (iblk m c 3 t : Vec Ideal S1x256 .f32) (ix2 (0 : Fin 1) n)) = fun n => biasRow1 m c (ix2 (0 : Fin 1) n) :=
    funext fun n => biasBlock1 m c t n
  have e4 : (fun k n => (iblk m c 4 t : Vec Ideal S256x128 .bf16) (ix2 k n)) = fun k n => weight2 m c (ix2 k n) :=
    funext fun k => funext fun n => weightBlock2 m c t k n
  have e5 : (fun n => (iblk m c 5 t : Vec Ideal S1x128 .f32) (ix2 (0 : Fin 1) n)) = fun n => biasRow2 m c (ix2 (0 : Fin 1) n) :=
    funext fun n => biasBlock2 m c t n
  have e6 : (fun k n => (iblk m c 6 t : Vec Ideal S128x16 .bf16) (ix2 k n)) = fun k n => weight3 m c (ix2 k n) :=
    funext fun k => funext fun n => weightBlock3 m c t k n
  have e7 : (fun n => (iblk m c 7 t : Vec Ideal S1x16 .f32) (ix2 (0 : Fin 1) n)) = fun n => biasRow3 m c (ix2 (0 : Fin 1) n) :=
    funext fun n => biasBlock3 m c t n
  rw [e0, e1, e2, e3, e4, e5, e6, e7]
  rfl

/-- WHAT POINT `t` WRITES BACK is block `t` of the result. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz]
  simp only [View.ld_unit_zero (S := S10000x128) hz, View.ld_unit_zero (S := S256x256) hz, View.ld_unit_zero (S := S1x256) hz,
    View.ld_unit_zero (S := S256x128) hz, View.ld_unit_zero (S := S1x128) hz, View.ld_unit_zero (S := S128x16) hz, View.ld_unit_zero (S := S1x16) hz]
  obtain ⟨-, -, -, -, h0, h1⟩ := moving t
  funext y
  rw [View.read_apply]
  exact stored_block m c t ((win0 8).xinj (grid0.coords t) y) (((cfg0.win 8).blk t).view.emb y)
    (by show win0_8.index t (0 : Fin 2) * 10000 + 1 * (y 0).val = 10000 * t.val + (y 0).val; rw [h0]; omega)
    (by show win0_8.index t (1 : Fin 2) * 16 + 1 * (y 1).val = (y 1).val; rw [h1]; omega)

/-! ## The 50 blocks tile the result -/

/-- An index of the result is in point `t`'s block iff each coordinate is in the block's range on its axis. -/
theorem mem_block (t : Fin cfg0.N) (i : S500000x16.Idx) :
    i ∈ ((cfg0.win 8).blk t).view.set ↔ ∀ a : Fin 2, win0_8.index t a * S10000x16.size a ≤ (i a).val ∧ (i a).val < win0_8.index t a * S10000x16.size a + S10000x16.size a := by
  show i ∈ ((View.whole main_v23).slice (win0_8.rect t)).set ↔ _
  rw [View.set_slice_whole, Rect.mem_set_unit]
  exact Iff.rfl

/-- Every index of the result is in the block of the point its row falls to, and that point writes back. -/
theorem covered (i : S500000x16.Idx) : ∃ t : Fin cfg0.N, (cfg0.win 8).flush t = true ∧ i ∈ ((cfg0.win 8).blk t).view.set := by
  have hi0 : (i 0).val < 500000 := idx2_lt0 i
  have hi1 : (i 1).val < 16 := idx2_lt1 i
  have hN : cfg0.N = 50 := N_0
  let t : Fin cfg0.N := ⟨(i 0).val / 10000, by rw [hN]; omega⟩
  obtain ⟨-, -, -, -, h0, h1⟩ := moving t
  have ht : t.val = (i 0).val / 10000 := rfl
  refine ⟨t, flush0_8 t, ?_⟩
  rw [mem_block]
  intro a
  match a with
  | ⟨0, _⟩ => show win0_8.index t (0 : Fin 2) * 10000 ≤ (i 0).val ∧ (i 0).val < win0_8.index t (0 : Fin 2) * 10000 + 10000; rw [h0, ht]; omega
  | ⟨1, _⟩ => show win0_8.index t (1 : Fin 2) * 16 ≤ (i 1).val ∧ (i 1).val < win0_8.index t (1 : Fin 2) * 16 + 16; rw [h1]; omega

/-- THE ARRAY AFTER THE RUN is the result. -/
theorem final (c : Dev nD) : (dats m 0 c).arrAt 8 cfg0.N = result m c :=
  (dats m 0 c).arrAt_eq_of_cover 8 (result m c) (fun t _ => flushed_eq m c t) covered

/-- The run, read: the result array at `result`, every argument unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.EdgeBlocks

end
-- ==== Proof.lean ====
/-
  The score of every edge, computed block by block on 16-bit copies against computed whole on the originals:
  the two programs agree on the extended reals wherever every source and destination id is a row number of the
  node table.

  The kernel forces each id into `[0, 49999]`, gathers the two endpoints' rows of the node table for all 500000 edges
  on the host, and runs the three-layer score network in 50 blocks of 10000 edges, every weight and bias resident. The
  reference gathers the same rows and runs the same three layers on all edges at once. On the extended reals a change
  of float format is the identity, a product into a zero accumulator is the sum the host's product is, and a row of a
  product depends on that row of its left operand only; so at `(e, j)` both results are one function — the score — of
  edge `e`'s two gathered rows, the weights and the biases (Proof/EdgeScore.lean; Proof/RefScore.lean for the reference,
  Proof/BodyScore.lean and Proof/EdgeBlocks.lean for the kernel). No sum is regrouped and no factor moved, so the
  finiteness of the float inputs is not used.

  What the precondition's range is used for: an id `s` with `0 ≤ s < 50000` passes the kernel's forcing unchanged
  (Proof/NodeIds.lean, Proof/HostArrays.lean), and then both programs hand the same index vector to the same gather. A
  negative id is where they part: the reference's indexing counts it from the table's end, the kernel's forcing sends
  it to row 0.
-/
import proofs.«406160_j1554778161753_3_alg».proof.Defs
import proofs.«406160_j1554778161753_3_alg».proof.Proof.Gen.Kernel
import proofs.«406160_j1554778161753_3_alg».proof.Proof.Gen.Kernel.Skeleton
import proofs.«406160_j1554778161753_3_alg».proof.Proof.Gen.Kernel.Launch
import proofs.«406160_j1554778161753_3_alg».proof.Proof.Gen.Kernel.Points
import proofs.«406160_j1554778161753_3_alg».proof.Proof.Gen.Kernel.Frame
import proofs.«406160_j1554778161753_3_alg».proof.Proof.Gen.KernelIdeal
import proofs.«406160_j1554778161753_3_alg».proof.Proof.Gen.KernelIdeal.Skeleton
import proofs.«406160_j1554778161753_3_alg».proof.Proof.Gen.KernelIdeal.Launch
import proofs.«406160_j1554778161753_3_alg».proof.Proof.Gen.KernelIdeal.Points
import proofs.«406160_j1554778161753_3_alg».proof.Proof.Gen.KernelIdeal.Frame
import proofs.«406160_j1554778161753_3_alg».proof.Proof.Gen.ReferenceIdeal
import proofs.«406160_j1554778161753_3_alg».proof.Proof.Gen.Pre_finite_inputs
import proofs.«406160_j1554778161753_3_alg».proof.Proof.Gen.KernelIdeal.Value
import proofs.«406160_j1554778161753_3_alg».proof.Proof.Gen.ReferenceIdeal.Run
import proofs.«406160_j1554778161753_3_alg».proof.Proof.Gen.ReferenceIdeal.Read
import proofs.«406160_j1554778161753_3_alg».proof.Proof.NodeIds
import proofs.«406160_j1554778161753_3_alg».proof.Proof.RefScore
import proofs.«406160_j1554778161753_3_alg».proof.Proof.HostArrays
import proofs.«406160_j1554778161753_3_alg».proof.Proof.EdgeBlocks
import Idealize.ShloMosaic.Adequacy
import Idealize.ShloMosaic.Init

noncomputable section

/-! ## The kernel's arrays at region entry are the reference's stages -/

namespace Cert.Proof.Bridge

open Idealize.ShloMosaic Idealize.ShloMosaic.TcCoe Idealize.SL.Sem Idealize.ShloMosaic.ValueIdx Cert.EdgeScore
open Cert.KernelIdeal Cert.KernelIdeal.Gen Cert.KernelIdeal.EdgeBlocks

variable (m : (ℓ : Loc nD τ sig) → Buf (Elt Ideal) ℓ)

/-- A bias vector as a one-row matrix reads, at `(0, n)`, the vector at `n`. -/
theorem oneRow256 (x : S256.Idx → EReal) (h : S256.ShapeCasts S1x256) (n : Fin 256) :
    shapeCast S1x256 x h (ix2 (0 : Fin 1) n) = x (ix1 n) :=
  shapeCast_apply x h (ix2 (0 : Fin 1) n) (ix1 n) (by
    rw [Shape.rowMajor_val_one, Shape.rowMajor_val_two]; show n.val = 0 * 256 + n.val; omega)
theorem oneRow128 (x : S128.Idx → EReal) (h : S128.ShapeCasts S1x128) (n : Fin 128) :
    shapeCast S1x128 x h (ix2 (0 : Fin 1) n) = x (ix1 n) :=
  shapeCast_apply x h (ix2 (0 : Fin 1) n) (ix1 n) (by
    rw [Shape.rowMajor_val_one, Shape.rowMajor_val_two]; show n.val = 0 * 128 + n.val; omega)
theorem oneRow16 (x : S16.Idx → EReal) (h : S16.ShapeCasts S1x16) (n : Fin 16) :
    shapeCast S1x16 x h (ix2 (0 : Fin 1) n) = x (ix1 n) :=
  shapeCast_apply x h (ix2 (0 : Fin 1) n) (ix1 n) (by
    rw [Shape.rowMajor_val_one, Shape.rowMajor_val_two]; show n.val = 0 * 16 + n.val; omega)

/-- With the source ids in range, the kernel's source table is the reference's first gather. -/
theorem srcTable_eq (c : Dev nD) (hx : ∀ e : S500000.Idx, ((m ((c : Thread nD τ).loc main_arg1) : IVec S500000 32) e).toNat < 50000) :
    srcTable m c = Cert.ReferenceIdeal.Read.val_main_v6 (F := Ideal) (m ((c : Thread nD τ).loc main_arg0)) (m ((c : Thread nD τ).loc main_arg1)) := by
  show (V m c main_v9 : S500000x128.Idx → Elt Ideal .bf16) = _
  rw [HostArrays.srcRows, HostArrays.forced_of_in_range _ hx]
  rfl

/-- With the destination ids in range, the kernel's destination table is the reference's second gather. -/
theorem dstTable_eq (c : Dev nD) (hx : ∀ e : S500000.Idx, ((m ((c : Thread nD τ).loc main_arg2) : IVec S500000 32) e).toNat < 50000) :
    dstTable m c = Cert.ReferenceIdeal.Read.val_main_v13 (F := Ideal) (m ((c : Thread nD τ).loc main_arg0)) (m ((c : Thread nD τ).loc main_arg2)) := by
  show (V m c main_v16 : S500000x128.Idx → Elt Ideal .bf16) = _
  rw [HostArrays.dstRows, HostArrays.forced_of_in_range _ hx]
  rfl

/-- THE TWO RESULTS ARE ONE ARRAY: under the precondition the reference's last stage, of the kernel's own arguments,
    is the kernel's result. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    Cert.ReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = result m c := by
  obtain ⟨hs, hd⟩ := Cert.NodeIds.in_range _ _ _ _ _ _ _ _ _ hpre
  funext i
  obtain ⟨e, j, rfl⟩ : ∃ (e : Fin 500000) (j : Fin 16), i = ix2 e j := ⟨i 0, i 1, eq_ix2 i⟩
  rw [Cert.ReferenceIdeal.RefScore.result_apply]
  unfold result
  rw [srcTable_eq m c hs, dstTable_eq m c hd]
  have w1 : (fun k n => weight1 m c (ix2 k n)) = fun (k n : Fin 256) => (m ((c : Thread nD τ).loc main_arg3) : S256x256.Idx → EReal) (ix2 k n) := by
    show (fun k n => (V m c main_v17 : S256x256.Idx → Elt Ideal .bf16) (ix2 k n)) = _
    rw [HostArrays.weights1]; rfl
  have w2 : (fun k n => weight2 m c (ix2 k n)) = fun (k : Fin 256) (n : Fin 128) => (m ((c : Thread nD τ).loc main_arg5) : S256x128.Idx → EReal) (ix2 k n) := by
    show (fun k n => (V m c main_v18 : S256x128.Idx → Elt Ideal .bf16) (ix2 k n)) = _
    rw [HostArrays.weights2]; rfl
  have w3 : (fun k n => weight3 m c (ix2 k n)) = fun (k : Fin 128) (n : Fin 16) => (m ((c : Thread nD τ).loc main_arg7) : S128x16.Idx → EReal) (ix2 k n) := by
    show (fun k n => (V m c main_v19 : S128x16.Idx → Elt Ideal .bf16) (ix2 k n)) = _
    rw [HostArrays.weights3]; rfl
  have b1 : (fun n => biasRow1 m c (ix2 (0 : Fin 1) n)) = fun (n : Fin 256) => (m ((c : Thread nD τ).loc main_arg4) : S256.Idx → EReal) (ix1 n) := by
    show (fun n => (V m c main_v20 : S1x256.Idx → Elt Ideal .f32) (ix2 (0 : Fin 1) n)) = _
    rw [HostArrays.bias1]; exact funext fun n => oneRow256 _ _ n
  have b2 : (fun n => biasRow2 m c (ix2 (0 : Fin 1) n)) = fun (n : Fin 128) => (m ((c : Thread nD τ).loc main_arg6) : S128.Idx → EReal) (ix1 n) := by
    show (fun n => (V m c main_v21 : S1x128.Idx → Elt Ideal .f32) (ix2 (0 : Fin 1) n)) = _
    rw [HostArrays.bias2]; exact funext fun n => oneRow128 _ _ n
  have b3 : (fun n => biasRow3 m c (ix2 (0 : Fin 1) n)) = fun (n : Fin 16) => (m ((c : Thread nD τ).loc main_arg8) : S16.Idx → EReal) (ix1 n) := by
    show (fun n => (V m c main_v22 : S1x16.Idx → Elt Ideal .f32) (ix2 (0 : Fin 1) n)) = _
    rw [HostArrays.bias3]; exact funext fun n => oneRow16 _ _ n
  rw [w1, w2, w3, b1, b2, b3]

end Cert.Proof.Bridge

/-! ## The claim -/

namespace Cert.Proof

open Idealize.ShloMosaic Idealize.SL.Sem Cert.Kernel

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories agreeing on the arguments the idealized kernel ends with its result array at the edges' scores
    (Proof/EdgeBlocks.lean) and the reference with its last stage at the same array (`Bridge.result_eq`). -/
theorem algebraic : Cert.algebraic_KernelIdeal_ReferenceIdeal := by
  intro m ρ m' ρ' hpre hagree
  refine ⟨fun c => Cert.KernelIdeal.EdgeBlocks.result m c, Cert.KernelIdeal.EdgeBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v28_eq, a0, a1, a2, a3, a4, a5, a6, a7, a8]
  exact Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
